-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S8192x128 : Shape := ⟨2, ![8192, 128]⟩
abbrev S_ : Shape := ⟨0, ![]⟩
abbrev S65536 : Shape := ⟨1, ![65536]⟩
abbrev S33554432x1 : Shape := ⟨2, ![33554432, 1]⟩

abbrev nBuf : Space → Nat
  | .hbm => 41
  | .vmem => 10
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .f32⟩
  | .hbm, ⟨4, _⟩ => ⟨S33554432, .f32⟩
  | .hbm, ⟨5, _⟩ => ⟨S_, .f32⟩
  | .hbm, ⟨6, _⟩ => ⟨S65536, .f32⟩
  | .hbm, ⟨7, _⟩ => ⟨S33554432x1, .i32⟩
  | .hbm, ⟨8, _⟩ => ⟨S65536, .f32⟩
  | .hbm, ⟨9, _⟩ => ⟨S65536, .f32⟩
  | .hbm, ⟨10, _⟩ => ⟨S_, .f32⟩
  | .hbm, ⟨11, _⟩ => ⟨S65536, .f32⟩
  | .hbm, ⟨12, _⟩ => ⟨S65536, .f32⟩
  | .hbm, ⟨13, _⟩ => ⟨S_, .f32⟩
  | .hbm, ⟨14, _⟩ => ⟨S65536, .f32⟩
  | .hbm, ⟨15, _⟩ => ⟨S65536, .f32⟩
  | .hbm, ⟨16, _⟩ => ⟨S_, .f32⟩
  | .hbm, ⟨17, _⟩ => ⟨S65536, .f32⟩
  | .hbm, ⟨18, _⟩ => ⟨S65536, .f32⟩
  | .hbm, ⟨19, _⟩ => ⟨S_, .f32⟩
  | .hbm, ⟨20, _⟩ => ⟨S65536, .f32⟩
  | .hbm, ⟨21, _⟩ => ⟨S65536, .f32⟩
  | .hbm, ⟨22, _⟩ => ⟨S_, .f32⟩
  | .hbm, ⟨23, _⟩ => ⟨S65536, .f32⟩
  | .hbm, ⟨24, _⟩ => ⟨S65536, .i1⟩
  | .hbm, ⟨25, _⟩ => ⟨S_, .f32⟩
  | .hbm, ⟨26, _⟩ => ⟨S_, .f32⟩
  | .hbm, ⟨27, _⟩ => ⟨S65536, .f32⟩
  | .hbm, ⟨28, _⟩ => ⟨S65536, .f32⟩
  | .hbm, ⟨29, _⟩ => ⟨S_, .i32⟩
  | .hbm, ⟨30, _⟩ => ⟨S33554432, .i32⟩
  | .hbm, ⟨31, _⟩ => ⟨S33554432, .i1⟩
  | .hbm, ⟨32, _⟩ => ⟨S_, .i32⟩
  | .hbm, ⟨33, _⟩ => ⟨S33554432, .i32⟩
  | .hbm, ⟨34, _⟩ => ⟨S33554432, .i32⟩
  | .hbm, ⟨35, _⟩ => ⟨S33554432, .i32⟩
  | .hbm, ⟨36, _⟩ => ⟨S33554432x1, .i32⟩
  | .hbm, ⟨37, _⟩ => ⟨S33554432, .f32⟩
  | .hbm, ⟨38, _⟩ => ⟨S262144x128, .f32⟩
  | .hbm, ⟨39, _⟩ => ⟨S262144x128, .f32⟩
  | .hbm, ⟨40, _⟩ => ⟨S33554432, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S33554432_S262144x128 : S33554432.ShapeCasts S262144x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S262144x128_S33554432 : S262144x128.ShapeCasts S33554432
  bcast_S_S65536 : S_.BroadcastsInDim S65536 (![] : Fin 0 → Fin S65536.rank)
  bcast_S33554432_S33554432x1_0 : S33554432.BroadcastsInDim S33554432x1 (![0] : Fin 1 → Fin S33554432x1.rank)
  bcast_S_S33554432 : S_.BroadcastsInDim S33554432 (![] : Fin 0 → Fin S33554432.rank)
  scatter_S65536_S33554432x1_S33554432_n_0_0_1_wf : ScatterDims.WF S65536 S33554432x1 S33554432 [] [0] [0] 1
  gather_S65536_S33554432x1_S33554432_n_0_n_n_0_1_1_wf : GatherDims.WF S65536 S33554432x1 S33554432 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S262144x128.size a
  hwx1_0 : ∀ i : grid1.Coords, EltTy.bits .f32 = 32 ∨ (Rect.block (s := S262144x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S262144x128.size a
  hwx1_1 : ∀ i : grid1.Coords, EltTy.bits .f32 = 32 ∨ (Rect.block (s := S262144x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S262144x128.size a
  hwx1_2 : ∀ i : grid1.Coords, EltTy.bits .f32 = 32 ∨ (Rect.block (s := S262144x128) S8192x128.size (cc1_transform_2 i) (hinb1_2 i)).WholeWords (EltTy.packing .f32)

variable [Facts₀]

def scatter_S65536_S33554432x1_S33554432_n_0_0_1 : ScatterDims S65536 S33554432x1 S33554432 where
  updateWindowDims := []
  insertedWindowDims := [0]
  scatterDimsToOperandDims := [0]
  indexVectorDim := 1
  wf := scatter_S65536_S33554432x1_S33554432_n_0_0_1_wf
def gather_S65536_S33554432x1_S33554432_n_0_n_n_0_1_1 : GatherDims S65536 S33554432x1 S33554432 where
  offsetDims := []
  collapsedSliceDims := [0]
  operandBatchingDims := []
  startIndicesBatchingDims := []
  startIndexMap := [0]
  indexVectorDim := 1
  sliceSizes := ![1]
  wf := gather_S65536_S33554432x1_S33554432_n_0_n_n_0_1_1_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S33554432 : Shape := ⟨1, ![33554432]⟩
abbrev S_ : Shape := ⟨0, ![]⟩
abbrev S65536 : Shape := ⟨1, ![65536]⟩
abbrev S33554432x1 : Shape := ⟨2, ![33554432, 1]⟩

abbrev nBuf : Space → Nat
  | .hbm => 37
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S33554432, .f32⟩
  | .hbm, ⟨3, _⟩ => ⟨S_, .f32⟩
  | .hbm, ⟨4, _⟩ => ⟨S65536, .f32⟩
  | .hbm, ⟨5, _⟩ => ⟨S33554432x1, .i32⟩
  | .hbm, ⟨6, _⟩ => ⟨S65536, .f32⟩
  | .hbm, ⟨7, _⟩ => ⟨S65536, .f32⟩
  | .hbm, ⟨8, _⟩ => ⟨S_, .f32⟩
  | .hbm, ⟨9, _⟩ => ⟨S65536, .f32⟩
  | .hbm, ⟨10, _⟩ => ⟨S65536, .f32⟩
  | .hbm, ⟨11, _⟩ => ⟨S_, .f32⟩
  | .hbm, ⟨12, _⟩ => ⟨S65536, .f32⟩
  | .hbm, ⟨13, _⟩ => ⟨S65536, .f32⟩
  | .hbm, ⟨14, _⟩ => ⟨S_, .f32⟩
  | .hbm, ⟨15, _⟩ => ⟨S65536, .f32⟩
  | .hbm, ⟨16, _⟩ => ⟨S65536, .f32⟩
  | .hbm, ⟨17, _⟩ => ⟨S_, .f32⟩
  | .hbm, ⟨18, _⟩ => ⟨S65536, .f32⟩
  | .hbm, ⟨19, _⟩ => ⟨S65536, .f32⟩
  | .hbm, ⟨20, _⟩ => ⟨S_, .f32⟩
  | .hbm, ⟨21, _⟩ => ⟨S65536, .f32⟩
  | .hbm, ⟨22, _⟩ => ⟨S65536, .i1⟩
  | .hbm, ⟨23, _⟩ => ⟨S_, .f32⟩
  | .hbm, ⟨24, _⟩ => ⟨S_, .f32⟩
  | .hbm, ⟨25, _⟩ => ⟨S65536, .f32⟩
  | .hbm, ⟨26, _⟩ => ⟨S65536, .f32⟩
  | .hbm, ⟨27, _⟩ => ⟨S_, .i32⟩
  | .hbm, ⟨28, _⟩ => ⟨S33554432, .i32⟩
  | .hbm, ⟨29, _⟩ => ⟨S33554432, .i1⟩
  | .hbm, ⟨30, _⟩ => ⟨S_, .i32⟩
  | .hbm, ⟨31, _⟩ => ⟨S33554432, .i32⟩
  | .hbm, ⟨32, _⟩ => ⟨S33554432, .i32⟩
  | .hbm, ⟨33, _⟩ => ⟨S33554432, .i32⟩
  | .hbm, ⟨34, _⟩ => ⟨S33554432x1, .i32⟩
  | .hbm, ⟨35, _⟩ => ⟨S33554432, .f32⟩
  | .hbm, ⟨36, _⟩ => ⟨S33554432, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S33554432_S33554432x1_0 : S33554432.BroadcastsInDim S33554432x1 (![0] : Fin 1 → Fin S33554432x1.rank)
  bcast_S_S33554432 : S_.BroadcastsInDim S33554432 (![] : Fin 0 → Fin S33554432.rank)
  scatter_S65536_S33554432x1_S33554432_n_0_0_1_wf : ScatterDims.WF S65536 S33554432x1 S33554432 [] [0] [0] 1
  gather_S65536_S33554432x1_S33554432_n_0_n_n_0_1_1_wf : GatherDims.WF S65536 S33554432x1 S33554432 [] [0] [] [0] [] 1 ![1]

variable [Facts₀]

def scatter_S65536_S33554432x1_S33554432_n_0_0_1 : ScatterDims S65536 S33554432x1 S33554432 where
  updateWindowDims := []
  insertedWindowDims := [0]
  scatterDimsToOperandDims := [0]
  indexVectorDim := 1
  wf := scatter_S65536_S33554432x1_S33554432_n_0_0_1_wf
def gather_S65536_S33554432x1_S33554432_n_0_n_n_0_1_1 : GatherDims S65536 S33554432x1 S33554432 where
  offsetDims := []
  collapsedSliceDims := [0]
  operandBatchingDims := []
  startIndicesBatchingDims := []
  startIndexMap := [0]
  indexVectorDim := 1
  sliceSizes := ![1]
  wf := gather_S65536_S33554432x1_S33554432_n_0_n_n_0_1_1_wf

class Facts : Prop extends Facts₀ where

variable [Facts]
-- ==== Proof.RegionValue.lean ====
/-
  What each of the two pipelined regions leaves in its output array, as ONE function of the arrays the region finds.
  Both kernels are pointwise on blocks of 8192 rows of a [262144, 128] array, the block at grid point `t` being rows
  `8192 t … 8192 t + 8191` of every window: the first writes back `x · x` of its input block, the second `x · y` of its
  two input blocks. Since every window of a region moves by the same index map, a block of the output is the same
  block of the pointwise product of the whole input arrays; the 32 blocks tile the rows, so the whole output array is
  that product. An input window's array is left as the region found it.
-/
import proofs.«104070_j79869211836511_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The pointwise product of two [262144, 128] arrays. -/
abbrev prodArr (a b : S262144x128.Idx → Elt F .f32) : S262144x128.Idx → Elt F .f32 := fun i => FloatOps.mulf (a i) (b i)

theorem origin : (![0, 0] : Fin 2 → Nat) = fun _ => 0 := funext fun a => by fin_cases a <;> rfl

/-! ## The bodies' payloads: a cast to the same shape is the identity, so each is the product of its loaded blocks -/

theorem square_payload (x : Vec F S8192x128 .f32) : k0_pay1 x = mulf x x := by
  show mulf (shapeCast S8192x128 x _) (shapeCast S8192x128 x _) = mulf x x
  rw [shapeCast_self]

theorem product_payload (x y : Vec F S8192x128 .f32) : k1_pay1 x y = mulf x y := by
  show mulf (shapeCast S8192x128 x _) (shapeCast S8192x128 y _) = mulf x y
  rw [shapeCast_self, shapeCast_self]

/-! ## Region 0: the squares -/

/-- At grid point `t` both windows are at block row `t`, block column `0`. -/
theorem rows0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the whole array of squares. -/
theorem square_flushed (c : Dev nD) (t : Fin cfg0.N) :
    (dat0 V c).flushed 1 t = ((cfg0.win 1).blk t).view.read (Elt F) (prodArr (V c main_v0) (V c main_v0)) := by
  show (cfg0.win 1).cut (grid0.coords t) ((dat0 V c).after 1 t) = _
  rw [after0_1]
  unfold out0_1
  rw [View.canon_unit_zero origin]
  simp only [View.ld_unit_zero (S := S8192x128) origin]
  rw [square_payload]
  obtain ⟨e0, e1, e2, e3⟩ := rows0 t
  funext j
  show FloatOps.mulf (V c main_v0 (((cfg0.win 0).blk t).view.emb j)) (V c main_v0 (((cfg0.win 0).blk t).view.emb j))
    = FloatOps.mulf (V c main_v0 (((cfg0.win 1).blk t).view.emb j)) (V c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 8192 + 1 * (j 0).val = win0_1.index t (0 : Fin 2) * 8192 + 1 * (j 0).val; omega
    | ⟨1, _⟩ => show win0_0.index t (1 : Fin 2) * 128 + 1 * (j 1).val = win0_1.index t (1 : Fin 2) * 128 + 1 * (j 1).val; omega
  rw [h0]

/-- An index is in point `t`'s output block iff each coordinate is in the block's range. -/
theorem mem_square_block (t : Fin cfg0.N) (i : S262144x128.Idx) :
    i ∈ ((cfg0.win 1).blk t).view.set ↔ ∀ a : Fin 2, win0_1.index t a * S8192x128.size a ≤ (i a).val ∧ (i a).val < win0_1.index t a * S8192x128.size a + S8192x128.size a := by
  show i ∈ ((View.whole main_v1).slice (win0_1.rect t)).set ↔ _
  rw [View.set_slice_whole, Rect.mem_set_unit]
  exact Iff.rfl

/-- Row `r` is in the block of point `r / 8192`: the 32 blocks tile the array. -/
theorem square_cover (i : S262144x128.Idx) :
    ∃ t : Fin cfg0.N, (cfg0.win 1).flush t = true ∧ i ∈ ((cfg0.win 1).blk t).view.set := by
  have hi0 : (i 0).val < 262144 := (i 0).isLt
  have hi1 : (i 1).val < 128 := (i 1).isLt
  have ht : (i 0).val / 8192 < cfg0.N := by show _ < grid0.N; rw [N_0]; omega
  obtain ⟨e0, e1, e2, e3⟩ := rows0 ⟨(i 0).val / 8192, ht⟩
  have e2' : win0_1.index ⟨(i 0).val / 8192, ht⟩ (0 : Fin 2) = (i 0).val / 8192 := e2
  refine ⟨⟨(i 0).val / 8192, ht⟩, flush0_1 _, ?_⟩
  rw [mem_square_block]
  intro a
  match a with
  | ⟨0, _⟩ => show win0_1.index ⟨(i 0).val / 8192, ht⟩ (0 : Fin 2) * 8192 ≤ (i 0).val ∧ (i 0).val < win0_1.index ⟨(i 0).val / 8192, ht⟩ (0 : Fin 2) * 8192 + 8192; omega
  | ⟨1, _⟩ => show win0_1.index ⟨(i 0).val / 8192, ht⟩ (1 : Fin 2) * 128 ≤ (i 1).val ∧ (i 1).val < win0_1.index ⟨(i 0).val / 8192, ht⟩ (1 : Fin 2) * 128 + 128; omega

/-- After region 0 its output array holds the squares of its input array, -/
theorem square_array (c : Dev nD) : (dat0 V c).arrAt 1 cfg0.N = prodArr (V c main_v0) (V c main_v0) :=
  (dat0 V c).arrAt_eq_of_cover 1 _ (fun t _ => square_flushed V c t) square_cover

/-- and its input array what the region found there. -/
theorem square_input (c : Dev nD) : (dat0 V c).arrAt 0 cfg0.N = V c main_v0 :=
  ((dat0 V c).arrAt_in 0 rfl cfg0.N).trans (A_eq0 V c 0)

/-! ## Region 1: the products -/

/-- At grid point `t` all three windows are at block row `t`, block column `0`. -/
theorem rows1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole array of products. -/
theorem product_flushed (c : Dev nD) (t : Fin cfg1.N) :
    (dat1 V c).flushed 2 t = ((cfg1.win 2).blk t).view.read (Elt F) (prodArr (V c main_v0) (V c main_v25)) := by
  show (cfg1.win 2).cut (grid1.coords t) ((dat1 V c).after 2 t) = _
  rw [after1_2]
  unfold out1_2
  rw [View.canon_unit_zero origin]
  simp only [View.ld_unit_zero (S := S8192x128) origin]
  rw [product_payload]
  obtain ⟨e0, e1, e2, e3, e4, e5⟩ := rows1 t
  funext j
  show FloatOps.mulf (V c main_v0 (((cfg1.win 0).blk t).view.emb j)) (V c main_v25 (((cfg1.win 1).blk t).view.emb j))
    = FloatOps.mulf (V c main_v0 (((cfg1.win 2).blk t).view.emb j)) (V c main_v25 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 8192 + 1 * (j 0).val = win1_2.index t (0 : Fin 2) * 8192 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 8192 + 1 * (j 0).val = win1_2.index t (0 : Fin 2) * 8192 + 1 * (j 0).val; omega
    | ⟨1, _⟩ => show win1_1.index t (1 : Fin 2) * 128 + 1 * (j 1).val = win1_2.index t (1 : Fin 2) * 128 + 1 * (j 1).val; omega
  rw [h0, h1]

theorem mem_product_block (t : Fin cfg1.N) (i : S262144x128.Idx) :
    i ∈ ((cfg1.win 2).blk t).view.set ↔ ∀ a : Fin 2, win1_2.index t a * S8192x128.size a ≤ (i a).val ∧ (i a).val < win1_2.index t a * S8192x128.size a + S8192x128.size a := by
  show i ∈ ((View.whole main_v26).slice (win1_2.rect t)).set ↔ _
  rw [View.set_slice_whole, Rect.mem_set_unit]
  exact Iff.rfl

theorem product_cover (i : S262144x128.Idx) :
    ∃ t : Fin cfg1.N, (cfg1.win 2).flush t = true ∧ i ∈ ((cfg1.win 2).blk t).view.set := by
  have hi0 : (i 0).val < 262144 := (i 0).isLt
  have hi1 : (i 1).val < 128 := (i 1).isLt
  have ht : (i 0).val / 8192 < cfg1.N := by show _ < grid1.N; rw [N_1]; omega
  obtain ⟨e0, e1, e2, e3, e4, e5⟩ := rows1 ⟨(i 0).val / 8192, ht⟩
  have e4' : win1_2.index ⟨(i 0).val / 8192, ht⟩ (0 : Fin 2) = (i 0).val / 8192 := e4
  refine ⟨⟨(i 0).val / 8192, ht⟩, flush1_2 _, ?_⟩
  rw [mem_product_block]
  intro a
  match a with
  | ⟨0, _⟩ => show win1_2.index ⟨(i 0).val / 8192, ht⟩ (0 : Fin 2) * 8192 ≤ (i 0).val ∧ (i 0).val < win1_2.index ⟨(i 0).val / 8192, ht⟩ (0 : Fin 2) * 8192 + 8192; omega
  | ⟨1, _⟩ => show win1_2.index ⟨(i 0).val / 8192, ht⟩ (1 : Fin 2) * 128 ≤ (i 1).val ∧ (i 1).val < win1_2.index ⟨(i 0).val / 8192, ht⟩ (1 : Fin 2) * 128 + 128; omega

/-- After region 1 its output array holds the products of its two input arrays. -/
theorem product_array (c : Dev nD) : (dat1 V c).arrAt 2 cfg1.N = prodArr (V c main_v0) (V c main_v25) :=
  (dat1 V c).arrAt_eq_of_cover 2 _ (fun t _ => product_flushed V c t) product_cover

end Cert.KernelIdeal.RegionValue

end
-- ==== Proof.HostChain.lean ====
/-
  The part the kernel's program and the reference share, carried as ONE function and never opened: from the squared
  coefficients `sq` and the group numbers `g`, the per-group sums of squares (a scatter-add into 65536 zeros), their
  roots `n`, the factor `max (1 − λ / (n + ε)) 0` where `n > ε` and `1` elsewhere, and that table read at each
  coefficient's group number (a negative number counted from the end). The two programs differ only in how `sq` and the
  last product are computed: the reference multiplies flat vectors, the kernel's program lays the vector out as
  [262144, 128], multiplies there, and lays the result flat again — a pointwise product commutes with that change of
  layout, and the layout change there and back is the identity.
-/
import proofs.«104070_j79869211836511_1_alg».proof.KernelIdeal
import Idealize.ShloMosaic.Lib.Pipeline.Value

noncomputable section

namespace Cert.HostChain

open Idealize.ShloMosaic
open Cert.KernelIdeal (S33554432 S_ S65536 S33554432x1 S262144x128)

variable {F : FTy → Type} [FloatOps F]

/-- Each coefficient's shrink factor, from the squared coefficients and the group numbers. The scatter's and the
    gather's dimension records and the three broadcast facts are parameters: each program states its own. -/
def factor (sc : ScatterDims S65536 S33554432x1 S33554432) (ga : GatherDims S65536 S33554432x1 S33554432)
    (h1 : S_.BroadcastsInDim S65536 (![] : Fin 0 → Fin S65536.rank))
    (h2 : S33554432.BroadcastsInDim S33554432x1 (![0] : Fin 1 → Fin S33554432x1.rank))
    (h3 : S_.BroadcastsInDim S33554432 (![] : Fin 0 → Fin S33554432.rank))
    (sq : FVec F S33554432 .f32) (g : IVec S33554432 32) : FVec F S33554432 .f32 :=
  Host.gather ga (select (cmpf .ogt (Host.sqrt (Host.scatterAdd sc (broadcastInDim S65536 ![] h1 (constant S_ .f32 0x00000000#32)) (broadcastInDim S33554432x1 ![0] h2 g) sq)) (broadcastInDim S65536 ![] h1 (constant S_ .f32 0x2EDBE6FF#32))) (maximumf (subf (broadcastInDim S65536 ![] h1 (constant S_ .f32 0x3F800000#32)) (Host.divf (broadcastInDim S65536 ![] h1 (constant S_ .f32 0x3A83126F#32)) (addf (Host.sqrt (Host.scatterAdd sc (broadcastInDim S65536 ![] h1 (constant S_ .f32 0x00000000#32)) (broadcastInDim S33554432x1 ![0] h2 g) sq)) (broadcastInDim S65536 ![] h1 (constant S_ .f32 0x2EDBE6FF#32))))) (broadcastInDim S65536 ![] h1 (constant S_ .f32 0x00000000#32))) (broadcastInDim S65536 ![] h1 (id (constant S_ .f32 0x3F800000#32)))) (broadcastInDim S33554432x1 ![0] h2 (select (cmpi .slt g (broadcastInDim S33554432 ![] h3 (constantI S_ 32 0#32))) (addi g (broadcastInDim S33554432 ![] h3 (constantI S_ 32 65536#32))) g))

/-- A pointwise product read through a change of layout is the product of the operands read through it. -/
theorem shapeCast_mulf {s t : Shape} {φ : FTy} (x y : FVec F s φ) (h : s.ShapeCasts t) :
    shapeCast t (mulf x y) h = mulf (shapeCast t x h) (shapeCast t y h) := rfl

/-- Two flat vectors laid out as [262144, 128], multiplied entry by entry there, and the product laid flat again: the
    product of the flat vectors. -/
theorem flat_of_blocked_product (a b : FVec F S33554432 .f32) (h : S33554432.ShapeCasts S262144x128)
    (h' : S262144x128.ShapeCasts S33554432) :
    shapeCast S33554432 (fun i => FloatOps.mulf (shapeCast S262144x128 a h i) (shapeCast S262144x128 b h i)) h' = mulf a b := by
  rw [show (fun i => FloatOps.mulf (shapeCast S262144x128 a h i) (shapeCast S262144x128 b h i))
      = mulf (shapeCast S262144x128 a h) (shapeCast S262144x128 b h) from rfl,
    shapeCast_mulf, shapeCast_shapeCast, shapeCast_shapeCast]

end Cert.HostChain

end
-- ==== Proof.KernelValue.lean ====
/-
  What the kernel's program leaves in its result buffer, read back through the run's boundaries. The last host
  operation lays region 1's output [262144, 128] flat; that output is the entrywise product of region 1's two input
  arrays; the second of them is the shared chain's factor vector laid out as [262144, 128], computed from region 0's
  output laid flat; region 0's output is the entrywise square of its input; and both regions' first input is the
  coefficient vector laid out as [262144, 128] by the first host operation. Laying a pointwise product flat again gives
  the product of the flat vectors, so the result is `coefficients · factor (coefficients · coefficients, groups)`.
-/
import proofs.«104070_j79869211836511_1_alg».proof.Proof.Gen.KernelIdeal.Frame
import proofs.«104070_j79869211836511_1_alg».proof.Proof.RegionValue
import proofs.«104070_j79869211836511_1_alg».proof.Proof.HostChain
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The shared chain at this program's own records and facts. -/
abbrev factorK (sq : FVec F S33554432 .f32) (g : IVec S33554432 32) : FVec F S33554432 .f32 :=
  Cert.HostChain.factor scatter_S65536_S33554432x1_S33554432_n_0_0_1 gather_S65536_S33554432x1_S33554432_n_0_n_n_0_1_1
    Gen.bcast_S_S65536 Gen.bcast_S33554432_S33554432x1_0 Gen.bcast_S_S33554432 sq g

/-! ## Before region 0 -/

/-- Region 0 is entered with the coefficients laid out as [262144, 128], -/
theorem entry_coeffs (c : Dev nD) : W1 m ρ c (Proc.devRef .tc main_v0)
    = shapeCast S262144x128 (m ((c : Thread nD τ).loc main_arg0)) Gen.shapeCasts_S33554432_S262144x128 := by
  dsimp only [W1, hostOps0]; after_results; rfl

/-- and the group numbers as launched. -/
theorem entry_groups (c : Dev nD) : W1 m ρ c (Proc.devRef .tc main_arg1) = m ((c : Thread nD τ).loc main_arg1) := by
  dsimp only [W1, hostOps0]; after_results

/-! ## Region 0's exit -/

theorem exit0_squares (c : Dev nD) : W2 m ρ c (Proc.devRef .tc main_v1)
    = RegionValue.prodArr (W1 m ρ c (Proc.devRef .tc main_v0)) (W1 m ρ c (Proc.devRef .tc main_v0)) :=
  (W2_arr m ρ c 1).trans (RegionValue.square_array (V1 m ρ) c)

theorem exit0_coeffs (c : Dev nD) : W2 m ρ c (Proc.devRef .tc main_v0) = W1 m ρ c (Proc.devRef .tc main_v0) :=
  (W2_arr m ρ c 0).trans (RegionValue.square_input (V1 m ρ) c)

theorem exit0_groups (c : Dev nD) : W2 m ρ c (Proc.devRef .tc main_arg1) = W1 m ρ c (Proc.devRef .tc main_arg1) :=
  W2_of_ne m ρ c main_arg1 (by decide)

/-! ## The host operations between the regions -/

/-- Region 1's second input: the factor vector, of region 0's output laid flat and the group numbers, laid out as
    [262144, 128]. -/
theorem entry1_factor (c : Dev nD) : W5 m ρ c (Proc.devRef .tc main_v25)
    = shapeCast S262144x128 (factorK (shapeCast S33554432 (W2 m ρ c (Proc.devRef .tc main_v1)) Gen.shapeCasts_S262144x128_S33554432)
        (W2 m ρ c (Proc.devRef .tc main_arg1))) Gen.shapeCasts_S33554432_S262144x128 := by
  dsimp only [W5, W4, W3, hostOps1, hostOps1_1, hostOps1_2]
  after_results_simp <;> rfl

/-- No host operation between the regions writes the laid-out coefficients. -/
theorem entry1_coeffs (c : Dev nD) : W5 m ρ c (Proc.devRef .tc main_v0) = W2 m ρ c (Proc.devRef .tc main_v0) := by
  dsimp only [W5, W4, W3, hostOps1, hostOps1_1, hostOps1_2]
  after_results_simp <;> rfl

/-! ## Region 1's exit and the last host operation -/

theorem exit1_products (c : Dev nD) : W6 m ρ c (Proc.devRef .tc main_v26)
    = RegionValue.prodArr (W5 m ρ c (Proc.devRef .tc main_v0)) (W5 m ρ c (Proc.devRef .tc main_v25)) :=
  (W6_arr m ρ c 2).trans (RegionValue.product_array (V5 m ρ) c)

theorem result_flat (c : Dev nD) : W7 m ρ c (Proc.devRef .tc main_v27)
    = shapeCast S33554432 (W6 m ρ c (Proc.devRef .tc main_v26)) Gen.shapeCasts_S262144x128_S33554432 := by
  dsimp only [W7, hostOps2]; after_results; rfl

/-! ## The result -/

/-- The kernel's program ends with `coefficients · factor (coefficients · coefficients, groups)` in its result buffer. -/
theorem result (c : Dev nD) : W7 m ρ c (Proc.devRef .tc main_v27)
    = mulf (m ((c : Thread nD τ).loc main_arg0))
        (factorK (mulf (m ((c : Thread nD τ).loc main_arg0)) (m ((c : Thread nD τ).loc main_arg0))) (m ((c : Thread nD τ).loc main_arg1))) := by
  rw [result_flat, exit1_products, entry1_coeffs, exit0_coeffs, entry1_factor, exit0_squares, exit0_groups, entry_groups,
    entry_coeffs]
  rw [Cert.HostChain.flat_of_blocked_product, Cert.HostChain.flat_of_blocked_product]

end Cert.KernelIdeal.KernelValue

end
-- ==== Proof.RefTerm.lean ====
/-
  The reference's run, with its result stated over the shared chain: the reference multiplies the coefficient vector by
  `factor (coefficients · coefficients, groups)`, the chain taken at the reference's own scatter and gather records and
  broadcast facts. Its generated run states the same term written out.
-/
import proofs.«104070_j79869211836511_1_alg».proof.Proof.Gen.ReferenceIdeal.Run
import proofs.«104070_j79869211836511_1_alg».proof.Proof.HostChain

noncomputable section

namespace Cert.RefTerm

open Cert.ReferenceIdeal Cert.ReferenceIdeal.Gen
open Idealize.ShloMosaic Idealize.ShloMosaic.TcCoe Idealize.SL.Sem

variable {F : FTy → Type} [FloatOps F]

/-- The shared chain at the reference's own records and facts. -/
abbrev factorR (sq : FVec F S33554432 .f32) (g : IVec S33554432 32) : FVec F S33554432 .f32 :=
  Cert.HostChain.factor scatter_S65536_S33554432x1_S33554432_n_0_0_1 gather_S65536_S33554432x1_S33554432_n_0_n_n_0_1_1
    Gen.bcast_S_S65536 Gen.bcast_S33554432_S33554432x1_0 Gen.bcast_S_S33554432 sq g

/-- Every weakly fair execution of the reference terminates with `coefficients · factor (coefficients², groups)` in its
    result buffer and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
        = mulf (m ((c.tc : Thread nD τ).loc main_arg0))
            (factorR (mulf (m ((c.tc : Thread nD τ).loc main_arg0)) (m ((c.tc : Thread nD τ).loc main_arg0))) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.RefTerm

end
-- ==== Proof.lean ====
/-
  The certificate of a group-lasso proximal step. From a coefficient vector `x` (33554432 floats) and a group number
  per coefficient, both programs compute, per group, the root `n` of the sum of the squares of its coefficients, the
  factor `max (1 − λ / (n + ε)) 0` where `n > ε` and `1` elsewhere, and return each coefficient times its group's factor.
  The reference does the two entrywise products (`x · x` before the per-group sums, `x · factor` at the end) on flat
  vectors; the kernel's program does each in a pipelined region over the vector laid out as [262144, 128], in 32 blocks
  of 8192 rows, and lays the result flat again. Everything between the two products is the same chain of operations in
  both programs and is carried as one function (Proof/HostChain.lean).

  The equivalence needs no algebra on the extended reals: each region's output array is the entrywise product of its
  input arrays (Proof/RegionValue.lean: a block of the output is the same block of that product, and the blocks tile
  the array), and an entrywise product commutes with the change of layout, which there and back is the identity
  (Proof/KernelValue.lean). So both programs end at `x · factor (x · x, groups)`, and the precondition is never opened.
  The frames of the two kernel programs are the generated ones; the reference's is its generated run with the result
  dropped; the ideal pass rewrote nothing, so `preserves` is `True`.
-/
import proofs.«104070_j79869211836511_1_alg».proof.Defs
import proofs.«104070_j79869211836511_1_alg».proof.Proof.Gen.Kernel
import proofs.«104070_j79869211836511_1_alg».proof.Proof.Gen.Kernel.Skeleton
import proofs.«104070_j79869211836511_1_alg».proof.Proof.Gen.Kernel.Launch
import proofs.«104070_j79869211836511_1_alg».proof.Proof.Gen.Kernel.Points
import proofs.«104070_j79869211836511_1_alg».proof.Proof.Gen.Kernel.Frame
import proofs.«104070_j79869211836511_1_alg».proof.Proof.Gen.KernelIdeal
import proofs.«104070_j79869211836511_1_alg».proof.Proof.Gen.KernelIdeal.Skeleton
import proofs.«104070_j79869211836511_1_alg».proof.Proof.Gen.KernelIdeal.Launch
import proofs.«104070_j79869211836511_1_alg».proof.Proof.Gen.KernelIdeal.Points
import proofs.«104070_j79869211836511_1_alg».proof.Proof.Gen.KernelIdeal.Frame
import proofs.«104070_j79869211836511_1_alg».proof.Proof.Gen.ReferenceIdeal
import proofs.«104070_j79869211836511_1_alg».proof.Proof.Gen.ReferenceIdeal.Run
import proofs.«104070_j79869211836511_1_alg».proof.Proof.Gen.Pre_finite_inputs
import proofs.«104070_j79869211836511_1_alg».proof.Proof.KernelRun
import proofs.«104070_j79869211836511_1_alg».proof.Proof.KernelValue
import proofs.«104070_j79869211836511_1_alg».proof.Proof.RefTerm
import Idealize.ShloMosaic.Adequacy
import Idealize.ShloMosaic.Init

noncomputable section

namespace Cert.Proof

open Idealize.ShloMosaic Idealize.ShloMosaic.TcCoe Idealize.SL.Sem

/-- The shared chain is one function whichever program states its records: the two scatter records have the same
    fields, and so have the two gather records. -/
theorem factor_same {F : FTy → Type} [FloatOps F] (sq : FVec F Cert.KernelIdeal.S33554432 .f32) (g : IVec Cert.KernelIdeal.S33554432 32) :
    Cert.RefTerm.factorR sq g = Cert.KernelIdeal.KernelValue.factorK sq g := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with `x · factor (x · x, groups)` in their
    result buffers. -/
theorem algebraic : Cert.algebraic_KernelIdeal_ReferenceIdeal := by
  intro m ρ m' ρ' _ hagree
  refine ⟨fun c => (mulf (F := Ideal) (m ((c.tc : Thread Cert.KernelIdeal.nD Cert.KernelIdeal.τ).loc Cert.KernelIdeal.main_arg0))
      (Cert.KernelIdeal.KernelValue.factorK (F := Ideal)
        (mulf (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg0)))
        (m ((c.tc : Thread Cert.KernelIdeal.nD Cert.KernelIdeal.τ).loc Cert.KernelIdeal.main_arg1)))
      : FVec Ideal Cert.KernelIdeal.S33554432 .f32), ?_, ?_⟩
  · exact (θ_run Cert.KernelIdeal.defs _ _).mono
      (fun r h c => ⟨(h c).1.trans (Cert.KernelIdeal.KernelValue.result m ρ c), (h c).2⟩)
      (Cert.KernelIdeal.GenRun.run_named (F := Ideal) m ρ)
  · refine (θ_run Cert.ReferenceIdeal.defs _ _).mono (fun r h c => ⟨(h c).1.trans ?_, (h c).2⟩)
      (Cert.RefTerm.run (F := Ideal) m' ρ')
    rw [(hagree c).1, (hagree c).2]
    exact congrArg (mulf _) (factor_same _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
